-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn {F : FTy → Type} [FloatOps F] (main_arg0 : FVec F S8192x1024 .f32) (main_arg1 : FVec F S1024x1024 .f32) (main_arg2 : FVec F S1x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  main_v13
-- ==== Kernel.lean ====
abbrev S8192x1024 : Shape := ⟨2, ![8192, 1024]⟩
abbrev S1024x1024 : Shape := ⟨2, ![1024, 1024]⟩
abbrev S1x1024 : Shape := ⟨2, ![1, 1024]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1x1024, .f32⟩
  | .hbm, ⟨3, _⟩ => ⟨S1024x1024, .bf16⟩
  | .hbm, ⟨4, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  broadcasts_S1x1024_S512x1024 : S1x1024.Broadcasts S512x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x1024.size a
  hwx0_3 : ∀ i : grid0.Coords, EltTy.bits .f32 = 32 ∨ (Rect.block (s := S8192x1024) S512x1024.size (cc0_transform_3 i) (hinb0_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1x1024 : Shape := ⟨2, ![1, 1024]⟩
abbrev S256x1024 : Shape := ⟨2, ![256, 1024]⟩
abbrev S1024x256 : Shape := ⟨2, ![1024, 256]⟩
abbrev S1x256 : Shape := ⟨2, ![1, 256]⟩
abbrev S256x256 : Shape := ⟨2, ![256, 256]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1x1024, .f32⟩
  | .hbm, ⟨3, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S1024x256, .f32⟩
  | .local _ .vmem, ⟨3, _⟩ => ⟨S1024x256, .f32⟩
  | .local _ .vmem, ⟨4, _⟩ => ⟨S1x256, .f32⟩
  | .local _ .vmem, ⟨5, _⟩ => ⟨S1x256, .f32⟩
  | .local _ .vmem, ⟨6, _⟩ => ⟨S256x256, .f32⟩
  | .local _ .vmem, ⟨7, _⟩ => ⟨S256x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![32, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x1024_S256x1024_0_0 : ∀ a, (![0, 0] : Fin 2 → Nat) a + S256x1024.size a ≤ S256x1024.size a
  h_S256x1024 : 0 < S256x1024.numel
  inb_S1024x256_S1024x256_0_0 : ∀ a, (![0, 0] : Fin 2 → Nat) a + S1024x256.size a ≤ S1024x256.size a
  h_S1024x256 : 0 < S1024x256.numel
  inb_S1x256_S1x256_0_0 : ∀ a, (![0, 0] : Fin 2 → Nat) a + S1x256.size a ≤ S1x256.size a
  h_S1x256 : 0 < S1x256.numel
  broadcasts_S1x256_S256x256 : S1x256.Broadcasts S256x256
  dot_S256x1024_S1024x256_S256x256_1_0_0_1_n_n_wf : DotDims.WF S256x1024 S1024x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x1024.size a
  hwx0_1 : ∀ i : grid0.Coords, EltTy.bits .f32 = 32 ∨ (Rect.block (s := S1024x1024) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x1024.size a
  hwx0_2 : ∀ i : grid0.Coords, EltTy.bits .f32 = 32 ∨ (Rect.block (s := S1x1024) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S8192x1024.size a
  hwx0_3 : ∀ i : grid0.Coords, EltTy.bits .f32 = 32 ∨ (Rect.block (s := S8192x1024) S256x256.size (cc0_transform_3 i) (hinb0_3 i)).WholeWords (EltTy.packing .f32)

variable [Facts₀]

def dot_S256x1024_S1024x256_S256x256_1_0_0_1_n_n : DotDims S256x1024 S1024x256 S256x256 where
  lhsContracting := [1]
  rhsContracting := [0]
  lhsNonContracting := [0]
  rhsNonContracting := [1]
  lhsBatch := []
  rhsBatch := []
  wf := dot_S256x1024_S1024x256_S256x256_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== Proof.LibDotFormats.lean ====
/-
  Matrix products with ONE contracted axis, read at an index, for operands of any float formats.

  Two arrangements of the dimension numbers of a rank-2 product without batch axes:
  * rows by columns: an `A × K` left operand against a `K × B` right operand, the left operand's second axis
    contracted against the right operand's first; entry `(p, q)` is `∑ k, f (p, k) · g (k, q)`;
  * rows by rows: an `A × K` left operand against a `B × K` right operand, the second axis of both contracted
    (the right operand enters transposed); entry `(p, q)` is `∑ k, f (p, k) · g (q, k)`.
  In both the contraction index has the one coordinate `k : Fin K`. Any record with those dimension numbers is
  the library's `DotDims.plain`, respectively `DotDims.transposedRhs`, for which the operand indices compute.
  The operands' element formats are arbitrary (at the ideal values every format is the extended reals), so the
  statements serve a product of half-precision operands accumulated in single precision as well.
-/
import Idealize.ShloMosaic.PureOps.Ideal
import Idealize.ShloMosaic.PureOps.Ideal.Laws
import Idealize.ShloMosaic.Lib.ValueIdx

noncomputable section

namespace Cert.LibDotFormats

open Idealize.ShloMosaic Idealize.ShloMosaic.ValueIdx
open scoped BigOperators

variable {A K B : Nat}

/-! ## Rows by columns: `[A, K] × [K, B]`, dimension numbers `[1] × [0]` -/

/-- Dimension numbers `[1] × [0]`, free axes `[0]` and `[1]`, no batch: the record is `DotDims.plain`. -/
theorem eq_plain (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) : d = DotDims.plain A K B := by
  cases d
  simp only at hlc hrc hln hrn hlb hrb
  subst hlc hrc hln hrn hlb hrb
  rfl

theorem plain_rank : (DotDims.plain A K B).contr.rank = 1 := rfl
theorem plain_size : (DotDims.plain A K B).contr.size ⟨0, by rw [plain_rank]; exact Nat.one_pos⟩ = K := rfl

theorem plain_lhs (p : Fin A) (q : Fin B) (k : Fin K) :
    (DotDims.plain A K B).lhsIdx (ix2 p q) ((contrEquiv1 (DotDims.plain A K B) K plain_rank plain_size).symm k) = ix2 p k := by
  funext a
  apply Fin.ext
  match a with
  | ⟨0, _⟩ => rfl
  | ⟨1, _⟩ => rfl

theorem plain_rhs (p : Fin A) (q : Fin B) (k : Fin K) :
    (DotDims.plain A K B).rhsIdx (ix2 p q) ((contrEquiv1 (DotDims.plain A K B) K plain_rank plain_size).symm k) = ix2 k q := by
  funext a
  apply Fin.ext
  match a with
  | ⟨0, _⟩ => rfl
  | ⟨1, _⟩ => rfl

/-- The sum over the contraction index is the sum over `k : Fin K` of `f (p, k) · g (k, q)`. -/
theorem plain_sum (f : (⟨2, ![A, K]⟩ : Shape).Idx → EReal) (g : (⟨2, ![K, B]⟩ : Shape).Idx → EReal) (p : Fin A) (q : Fin B) :
    ∑ k : (DotDims.plain A K B).contr.Idx, f ((DotDims.plain A K B).lhsIdx (ix2 p q) k) * g ((DotDims.plain A K B).rhsIdx (ix2 p q) k)
      = ∑ k : Fin K, f (ix2 p k) * g (ix2 k q) := by
  rw [← Equiv.sum_comp (contrEquiv1 (DotDims.plain A K B) K plain_rank plain_size).symm]
  refine Finset.sum_congr rfl fun k _ => ?_
  rw [plain_lhs, plain_rhs]

/-- A product into the zero accumulator, at `(p, q)`: `∑ k, lhs (p, k) · rhs (k, q)`. -/
theorem matmul_cols_zero_apply {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ φ₁) (rhs : FVec Ideal ⟨2, ![K, B]⟩ φ₂)
    (p : Fin A) (q : Fin B) :
    FloatOps.matmul d prec lhs rhs (constant ⟨2, ![A, B]⟩ .f32 0x00000000#32) (ix2 p q) = ∑ k : Fin K, lhs (ix2 p k) * rhs (ix2 k q) := by
  rw [eq_plain d hlc hrc hln hrn hlb hrb, Ideal.matmul_constant_zero_apply]
  exact plain_sum lhs rhs p q

/-! ## Rows by rows: `[A, K] × [B, K]`, dimension numbers `[1] × [1]` -/

/-- Dimension numbers `[1] × [1]`, free axes `[0]` and `[0]`, no batch: the record is `DotDims.transposedRhs`. -/
theorem eq_transposedRhs (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = []) : d = DotDims.transposedRhs A K B := by
  cases d
  simp only at hlc hrc hln hrn hlb hrb
  subst hlc hrc hln hrn hlb hrb
  rfl

theorem rows_rank : (DotDims.transposedRhs A K B).contr.rank = 1 := rfl
theorem rows_size : (DotDims.transposedRhs A K B).contr.size ⟨0, by rw [rows_rank]; exact Nat.one_pos⟩ = K := rfl

theorem rows_lhs (p : Fin A) (q : Fin B) (k : Fin K) :
    (DotDims.transposedRhs A K B).lhsIdx (ix2 p q) ((contrEquiv1 (DotDims.transposedRhs A K B) K rows_rank rows_size).symm k) = ix2 p k := by
  funext a
  apply Fin.ext
  match a with
  | ⟨0, _⟩ => rfl
  | ⟨1, _⟩ => rfl

theorem rows_rhs (p : Fin A) (q : Fin B) (k : Fin K) :
    (DotDims.transposedRhs A K B).rhsIdx (ix2 p q) ((contrEquiv1 (DotDims.transposedRhs A K B) K rows_rank rows_size).symm k) = ix2 q k := by
  funext a
  apply Fin.ext
  match a with
  | ⟨0, _⟩ => rfl
  | ⟨1, _⟩ => rfl

/-- The sum over the contraction index is the sum over `k : Fin K` of `f (p, k) · g (q, k)`. -/
theorem rows_sum (f : (⟨2, ![A, K]⟩ : Shape).Idx → EReal) (g : (⟨2, ![B, K]⟩ : Shape).Idx → EReal) (p : Fin A) (q : Fin B) :
    ∑ k : (DotDims.transposedRhs A K B).contr.Idx,
        f ((DotDims.transposedRhs A K B).lhsIdx (ix2 p q) k) * g ((DotDims.transposedRhs A K B).rhsIdx (ix2 p q) k)
      = ∑ k : Fin K, f (ix2 p k) * g (ix2 q k) := by
  rw [← Equiv.sum_comp (contrEquiv1 (DotDims.transposedRhs A K B) K rows_rank rows_size).symm]
  refine Finset.sum_congr rfl fun k _ => ?_
  rw [rows_lhs, rows_rhs]

/-- A product into the zero accumulator with the right operand contracted on its last axis, at `(p, q)`:
    `∑ k, lhs (p, k) · rhs (q, k)`. -/
theorem matmul_rows_zero_apply {φ₁ φ₂ : FTy} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (lhs : FVec Ideal ⟨2, ![A, K]⟩ φ₁) (rhs : FVec Ideal ⟨2, ![B, K]⟩ φ₂)
    (p : Fin A) (q : Fin B) :
    FloatOps.matmul d prec lhs rhs (constant ⟨2, ![A, B]⟩ .f32 0x00000000#32) (ix2 p q) = ∑ k : Fin K, lhs (ix2 p k) * rhs (ix2 q k) := by
  rw [eq_transposedRhs d hlc hrc hln hrn hlb hrb, Ideal.matmul_constant_zero_apply]
  exact rows_sum lhs rhs p q

end Cert.LibDotFormats

end
-- ==== Proof.KernelTile.lean ====
/-
  One grid point of the kernel, read at an index.

  At a grid point the body loads a tile of 512 rows of x, the whole weight array (already narrowed to the half-width
  format on the host, which on the extended reals changes nothing) and the bias row; it multiplies the tile by the
  weights into a zero accumulator, adds the bias row to every row and applies the logistic. Read at (p, q) that is

      logistic ( (sum over k of tile(p, k) * weights(k, q)) + bias(0, q) ).
-/
import proofs.«153373_g2000609348534853_pallasbulk_567_2_alg».proof.Proof.Gen.KernelIdeal.Skeleton
import proofs.«153373_g2000609348534853_pallasbulk_567_2_alg».proof.Proof.LibDotFormats
import Idealize.ShloMosaic.Lib.Pipeline.Value
import Idealize.ShloMosaic.Lib.ValueIdx

noncomputable section

namespace Cert.KernelIdeal.Tile

open Cert.KernelIdeal Cert.KernelIdeal.Gen Idealize.ShloMosaic Idealize.ShloMosaic.ValueIdx
open scoped BigOperators

/-- The bias row spread over the 512 rows of a tile reads, at (p, q), the row's entry q. -/
theorem bias_rows (x2 : Vec Ideal S1x1024 .f32) (p : Fin 512) (q : Fin 1024) :
    broadcastTo S512x1024 x2 Facts₀.broadcasts_S1x1024_S512x1024 (ix2 p q) = x2 (ix2 0 q) := by
  refine broadcastTo_apply _ _ _ _ fun a => ?_
  match a with
  | ⟨0, _⟩ => rfl
  | ⟨1, _⟩ => rfl

/-- What the body stores, at (p, q) of the tile: the logistic of row p of the tile against column q of the weights,
    plus the bias entry q. The narrowing of the tile to the half-width format is the identity on the extended reals,
    and so is the shape cast of the weights to their own shape. -/
theorem stored_apply (x0 : Vec Ideal S512x1024 .f32) (x1 : Vec Ideal S1024x1024 .bf16) (x2 : Vec Ideal S1x1024 .f32)
    (p : Fin 512) (q : Fin 1024) :
    k0_pay1 (F := Ideal) x0 x1 x2 (ix2 p q)
      = Ideal.logistic ((∑ k : Fin 1024, x0 (ix2 p k) * x1 (ix2 k q)) + x2 (ix2 0 q)) := by
  unfold k0_pay1
  show Ideal.logistic (FloatOps.matmul (F := Ideal) _ none _ _ (constant (F := Ideal) S512x1024 .f32 0x00000000#32) (ix2 p q)
      + broadcastTo S512x1024 x2 _ (ix2 p q)) = _
  rw [Cert.LibDotFormats.matmul_cols_zero_apply _ rfl rfl rfl rfl rfl rfl, bias_rows, shapeCast_self]
  rfl

end Cert.KernelIdeal.Tile

end
-- ==== Proof.SigmoidAffine.lean ====
/-
  The function both programs compute, as ONE function of the three argument arrays.

  For x of 8192 rows and 1024 columns, w of 1024 rows and 1024 columns and a bias row b of 1024 entries, entry
  (p, q) of the result is

      logistic ( (sum over k < 1024 of x(p, k) * w(k, q)) + b(0, q) )

  on the extended reals: the logistic 1 / (1 + exp (-s)) of an affine map's value. Nothing here needs the entries
  to be finite: the two programs are compared through this one expression, and the only law used between them is
  that adding the zero of the extended reals on the left changes nothing.
-/
import Idealize.ShloMosaic.PureOps.Ideal
import Idealize.ShloMosaic.Lib.ValueIdx

noncomputable section

namespace Cert.SigmoidAffine

open Idealize.ShloMosaic Idealize.ShloMosaic.ValueIdx
open scoped BigOperators

/-- The shapes of the inputs: the rows x, the weights w (input features by output features), the bias row b. -/
abbrev SX : Shape := ⟨2, ![8192, 1024]⟩
abbrev SW : Shape := ⟨2, ![1024, 1024]⟩
abbrev SB : Shape := ⟨2, ![1, 1024]⟩

/-- Row `p` of `x` against column `q` of `w`: the affine map's value before the bias. -/
def dotAt (x : SX.Idx → EReal) (w : SW.Idx → EReal) (p : Fin 8192) (q : Fin 1024) : EReal :=
  ∑ k : Fin 1024, x (ix2 p k) * w (ix2 k q)

/-- Entry `(p, q)` of the result: the logistic of the affine map's value. -/
def entry (x : SX.Idx → EReal) (w : SW.Idx → EReal) (b : SB.Idx → EReal) (p : Fin 8192) (q : Fin 1024) : EReal :=
  Ideal.logistic (dotAt x w p q + b (ix2 0 q))

/-- The whole result array. -/
def result (x : SX.Idx → EReal) (w : SW.Idx → EReal) (b : SB.Idx → EReal) : SX.Idx → EReal :=
  fun i => entry x w b (i 0) (i 1)

theorem result_apply (x : SX.Idx → EReal) (w : SW.Idx → EReal) (b : SB.Idx → EReal) (i : SX.Idx) :
    result x w b i = entry x w b (i 0) (i 1) := rfl

/-- An accumulator started at zero and increased once by the affine map's value holds that value. -/
theorem zero_add_dotAt (x : SX.Idx → EReal) (w : SW.Idx → EReal) (p : Fin 8192) (q : Fin 1024) :
    (0 : EReal) + dotAt x w p q = dotAt x w p q := zero_add _

end Cert.SigmoidAffine

end
-- ==== Proof.KernelArray.lean ====
/-
  The kernel's result array as a whole.

  The kernel walks 16 grid points; point t reads rows 512 t .. 512 t + 511 of x, the whole weight array and the
  whole bias row, and writes rows 512 t .. 512 t + 511 of the result. The weight array the region reads is the
  host's narrowing of w to the half-width format, which on the extended reals is w itself. So what point t writes
  back is its block of the one whole-array function `SigmoidAffine.result` of the three arguments; the 16 blocks
  tile the result array (row r lies in the block of point r / 512), so the array ends holding that function.
-/
import proofs.«153373_g2000609348534853_pallasbulk_567_2_alg».proof.Proof.Gen.KernelIdeal.Value
import proofs.«153373_g2000609348534853_pallasbulk_567_2_alg».proof.Proof.KernelTile
import proofs.«153373_g2000609348534853_pallasbulk_567_2_alg».proof.Proof.SigmoidAffine
import Idealize.ShloMosaic.Lib.Pipeline.Value
import Idealize.ShloMosaic.Lib.StableHlo.Run
import Idealize.ShloMosaic.Lib.Tactic

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (m : (ℓ : Loc nD τ sig) → Buf (Elt Ideal) ℓ) (ρ : Dev nD → PrngReg)

theorem hz : (![0, 0] : Fin 2 → Nat) = fun _ => 0 := funext fun a => by fin_cases a <;> rfl

/-- The three argument arrays on core `c`, as functions into the extended reals. -/
abbrev xs (c : Dev nD) : S8192x1024.Idx → EReal := m ((c : Thread nD τ).loc main_arg0)
abbrev ws (c : Dev nD) : S1024x1024.Idx → EReal := m ((c : Thread nD τ).loc main_arg1)
abbrev bs (c : Dev nD) : S1x1024.Idx → EReal := m ((c : Thread nD τ).loc main_arg2)

/-- The weights the region reads: the host narrowed `w` to the half-width format, and on the extended reals a
    change of format is the identity. -/
theorem weights_found (c : Dev nD) : (V m c main_call0_v0 : S1024x1024.Idx → EReal) = ws m c := by
  dsimp only [V, hostOps0]
  after_results
  rfl

/-- The printed index maps over the 16 grid points: the x tile moves with the output tile down the rows, every
    other block index is zero. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 :=
  (by decide +kernel : ∀ t : Fin grid0.N, _)

/-- Every one of the 16 row blocks is some point's. -/
theorem idx_onto : ∀ r : Fin 16, ∃ t : Fin cfg0.N, win0_3.index t (0 : Fin 2) = r.val :=
  (by decide +kernel : ∀ r : Fin 16, ∃ t : Fin grid0.N, win0_3.index t (0 : Fin 2) = r.val)

/-- The x tile at point `t`, at `y`, is `x` at the index whose row is 512 times the block index plus `y`'s row. -/
theorem xtile_apply (c : Dev nD) (t : Fin cfg0.N) (y : S512x1024.Idx) (i : S8192x1024.Idx)
    (h0 : (i 0).val = win0_0.index t (0 : Fin 2) * 512 + (y 0).val)
    (h1 : (i 1).val = win0_0.index t (1 : Fin 2) * 1024 + (y 1).val) :
    (iblk m c 0 t : Vec Ideal S512x1024 .f32) y = xs m c i := by
  unfold iblk
  rw [View.read_apply]
  refine (congrFun (V_main_arg0 m c) _).trans (congrArg (xs m c) (funext fun a => Fin.ext ?_))
  match a with
  | ⟨0, _⟩ => show win0_0.index t (0 : Fin 2) * 512 + 1 * (y 0).val = (i 0).val; omega
  | ⟨1, _⟩ => show win0_0.index t (1 : Fin 2) * 1024 + 1 * (y 1).val = (i 1).val; omega

/-- The weight block at point `t` is the whole of `w`. -/
theorem wtile_apply (c : Dev nD) (t : Fin cfg0.N) (y : S1024x1024.Idx) (i : S1024x1024.Idx)
    (h0 : (i 0).val = win0_1.index t (0 : Fin 2) * 1024 + (y 0).val)
    (h1 : (i 1).val = win0_1.index t (1 : Fin 2) * 1024 + (y 1).val) :
    (iblk m c 1 t : Vec Ideal S1024x1024 .bf16) y = ws m c i := by
  unfold iblk
  rw [View.read_apply]
  refine (congrFun (weights_found m c) _).trans (congrArg (ws m c) (funext fun a => Fin.ext ?_))
  match a with
  | ⟨0, _⟩ => show win0_1.index t (0 : Fin 2) * 1024 + 1 * (y 0).val = (i 0).val; omega
  | ⟨1, _⟩ => show win0_1.index t (1 : Fin 2) * 1024 + 1 * (y 1).val = (i 1).val; omega

/-- The bias block at point `t` is the whole bias row. -/
theorem btile_apply (c : Dev nD) (t : Fin cfg0.N) (y : S1x1024.Idx) (i : S1x1024.Idx)
    (h0 : (i 0).val = win0_2.index t (0 : Fin 2) * 1 + (y 0).val)
    (h1 : (i 1).val = win0_2.index t (1 : Fin 2) * 1024 + (y 1).val) :
    (iblk m c 2 t : Vec Ideal S1x1024 .f32) y = bs m c i := by
  unfold iblk
  rw [View.read_apply]
  refine (congrFun (V_main_arg2 m c) _).trans (congrArg (bs m c) (funext fun a => Fin.ext ?_))
  match a with
  | ⟨0, _⟩ => show win0_2.index t (0 : Fin 2) * 1 + 1 * (y 0).val = (i 0).val; omega
  | ⟨1, _⟩ => show win0_2.index t (1 : Fin 2) * 1024 + 1 * (y 1).val = (i 1).val; omega

/-- WHAT POINT `t` WRITES BACK is its block of `SigmoidAffine.result` of the three arguments. -/
theorem flushed_eq (c : Dev nD) (t : Fin cfg0.N) :
    (dats m 0 c).flushed 3 t
      = ((cfg0.win 3).blk t).view.read (Elt Ideal) (Cert.SigmoidAffine.result (xs m c) (ws m c) (bs m c)) := by
  rw [Cert.KernelIdeal.Value.flushed3]
  unfold out0_3
  rw [View.canon_unit_zero hz]
  simp only [View.ld_unit_zero (S := S512x1024) hz, View.ld_unit_zero (S := S1024x1024) hz, View.ld_unit_zero (S := S1x1024) hz]
  obtain ⟨e00, e01, e10, e11, e20, e21, e31⟩ := idx_facts t
  refine funext fun (j : S512x1024.Idx) => ?_
  obtain ⟨p, q, rfl⟩ : ∃ (p : Fin 512) (q : Fin 1024), j = ix2 p q := ⟨j 0, j 1, eq_ix2 j⟩
  show k0_pay1 (F := Ideal) (iblk m c 0 t) (iblk m c 1 t) (iblk m c 2 t) (ix2 p q)
    = Cert.SigmoidAffine.result (xs m c) (ws m c) (bs m c) (((cfg0.win 3).blk t).view.emb (ix2 p q))
  refine (Cert.KernelIdeal.Tile.stored_apply (iblk m c 0 t) (iblk m c 1 t) (iblk m c 2 t) p q).trans ?_
  have r0 : ((((cfg0.win 3).blk t).view.emb (ix2 p q) : S8192x1024.Idx) 0).val = win0_3.index t (0 : Fin 2) * 512 + 1 * p.val := rfl
  have r1 : ((((cfg0.win 3).blk t).view.emb (ix2 p q) : S8192x1024.Idx) 1).val = win0_3.index t (1 : Fin 2) * 1024 + 1 * q.val := rfl
  rw [Cert.SigmoidAffine.result_apply]
  unfold Cert.SigmoidAffine.entry Cert.SigmoidAffine.dotAt
  refine congrArg Ideal.logistic (congrArg₂ (· + ·) (Finset.sum_congr rfl fun k _ => congrArg₂ (· * ·) ?_ ?_) ?_)
  · exact xtile_apply m c t (ix2 p k) _ (by rw [r0]; show _ = _ + p.val; omega) (by show k.val = _ + k.val; omega)
  · exact wtile_apply m c t (ix2 k q) _ (by show k.val = _ + k.val; omega) (by rw [r1]; show _ = _ + q.val; omega)
  · exact btile_apply m c t (ix2 0 q) _ (by show (0 : Nat) = _ + 0; omega) (by rw [r1]; show _ = _ + q.val; omega)

/-- An index of the result array is in point `t`'s block iff each coordinate is in the block's range on its axis. -/
theorem mem_blk (t : Fin cfg0.N) (i : S8192x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v0).slice (win0_3.rect t)).set ↔ _
  rw [View.set_slice_whole, Rect.mem_set_unit]
  exact Iff.rfl

/-- The 16 blocks tile the result array: row `r` lies in the block of the point whose block index is `r / 512`. -/
theorem covered (i : S8192x1024.Idx) : ∃ t : Fin cfg0.N, (cfg0.win 3).flush t = true ∧ i ∈ ((cfg0.win 3).blk t).view.set := by
  have hi0 : (i 0).val < 8192 := (i 0).isLt
  have hi1 : (i 1).val < 1024 := (i 1).isLt
  obtain ⟨t, ht⟩ := idx_onto ⟨(i 0).val / 512, by omega⟩
  have ht' : win0_3.index t (0 : Fin 2) = (i 0).val / 512 := ht
  obtain ⟨-, -, -, -, -, -, e31⟩ := idx_facts t
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- THE RESULT ARRAY after the run is `SigmoidAffine.result` of the three arguments. -/
theorem final (c : Dev nD) :
    (dats m 0 c).arrAt 3 cfg0.N = Cert.SigmoidAffine.result (xs m c) (ws m c) (bs m c) :=
  (dats m 0 c).arrAt_eq_of_cover 3 _ (fun t _ => flushed_eq m c t) covered

/-- The run, read: the result array at the one function of the arguments, the arguments unchanged. -/
theorem run : θ_run defs (onTc (τ := τ) (main (F := Ideal))) ⟨m, fun _ => 0, ρ⟩ fun r => ∀ c : Dev nD,
      r.2.mem ((c : Thread nD τ).loc main_v0) = Cert.SigmoidAffine.result (xs m c) (ws m c) (bs m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.Whole

end
-- ==== Proof.LibStoreRead.lean ====
/-
  Whole-buffer stores read back.

  A kernel body that keeps a running value in a staging buffer stores the whole buffer, loads it back, computes, and
  stores the whole buffer again. Each store and each load goes through the rectangle that is the whole shape at zero
  offsets. Whatever was stored earlier, a load of the whole buffer after several such stores reads the payload of
  the LAST store: the last store covers every index, and the buffer's contents where the last store wrote are its
  payload.
-/
import Idealize.ShloMosaic.Lib.Pipeline.Value

noncomputable section

namespace Idealize.ShloMosaic.View

variable {Val : EltTy → Type} {S : Shape} {e : EltTy}

/-- A load through the whole-shape rectangle at zero offsets, after a list of stores whose LAST one (the head of the
    list) went through that same rectangle, reads the last store's payload, whatever the earlier stores were. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  rw [readCov_eq_canon_ld _ _ _ (fun y => ⟨_, List.mem_cons_self, mem_set_unit_zero h inb y⟩),
    canon_cons_unit_zero h, ld_unit_zero h]

end Idealize.ShloMosaic.View

end
-- ==== Proof.RefTile.lean ====
/-
  One grid point of the reference kernel, read at an index.

  The reference tiles the product three ways (32 row tiles of 256 rows, 4 column tiles of 256 columns, and ONE tile
  along the contracted axis, of all 1024 terms). With one tile along the contracted axis every grid point is at once
  the first and the last of its reduction, so both of the body's conditions hold everywhere and the body always runs
  the same way: it stores zeros into the output tile, loads them back, adds the product of the row tile of x and the
  column tile of w (into a zero accumulator) and stores the sum, loads that back, adds the bias row and stores the
  logistic. So the buffer ends holding, at (p, q),

      logistic ( (0 + sum over k of xtile(p, k) * wtile(k, q)) + btile(0, q) ),

  and the leading zero changes nothing.
-/
import proofs.«153373_g2000609348534853_pallasbulk_567_2_alg».proof.Proof.Gen.ReferenceIdeal.Frame
import proofs.«153373_g2000609348534853_pallasbulk_567_2_alg».proof.Proof.LibDotFormats
import proofs.«153373_g2000609348534853_pallasbulk_567_2_alg».proof.Proof.LibStoreRead
import Idealize.ShloMosaic.Lib.Pipeline.Value
import Idealize.ShloMosaic.Lib.ValueIdx
import Idealize.ShloMosaic.Lib.Tactic

noncomputable section

namespace Cert.ReferenceIdeal.Tile

open Cert.ReferenceIdeal Cert.ReferenceIdeal.Gen Idealize.ShloMosaic Idealize.ShloMosaic.TcCoe Idealize.SL.Sem
open Idealize.ShloMosaic.ValueIdx
open scoped BigOperators

theorem hz : (![0, 0] : Fin 2 → Nat) = fun _ => 0 := funext fun a => by fin_cases a <;> rfl

section AnyValues

variable {F : FTy → Type} [FloatOps F]

/-- What the body's one control case leaves in the output tile's buffer: three whole-buffer stores, each later one
    computed from a whole-buffer load of the one before. The last store's payload is the logistic step applied to
    the accumulation step applied to the zero fill. -/
theorem left_in_tile (c : Dev nD) (i : grid0.Coords) (arg3 : Memref sig .tc .vmem S256x1024 .f32) (harg3 : arg3.IsWhole)
    (arg4 : Memref sig .tc .vmem S1024x256 .f32) (harg4 : arg4.IsWhole) (arg5 : Memref sig .tc .vmem S1x256 .f32) (harg5 : arg5.IsWhole)
    (arg6 : Memref sig .tc .vmem S256x256 .f32) (harg6 : arg6.IsWhole) (hc0 : cond0_0 i) (hc1 : cond0_1 i)
    (x0 : Vec F S256x1024 .f32) (x1 : Vec F S1024x256 .f32) (x2 : Vec F S1x256 .f32) :
    out0_A_3 c i arg3 harg3 arg4 harg4 arg5 harg5 arg6 harg6 hc0 hc1 x0 x1 x2
      = k0_pay3 (k0_pay2 (k0_pay1 (F := F)) x0 x1) x2 := by
  unfold out0_A_3
  rw [View.read_writes_eq_canon _ _ _ (cover0_A_3 c i arg3 harg3 arg4 harg4 arg5 harg5 arg6 harg6 hc0 hc1 x0 x1 x2)]
  unfold kernelRun0_A
  dsimp only
  sl_unfold_words
  rw [View.canon_cons_unit_zero (S := S256x256) hz, View.readCov_cons_unit_zero (S := S256x256) _ hz,
    View.readCov_unit_zero (S := S256x256) _ hz]
  simp only [View.readAt_eq_ld, harg3.read_unread, harg4.read_unread, harg5.read_unread,
    View.ld_unit_zero (S := S256x1024) hz, View.ld_unit_zero (S := S1024x256) hz, View.ld_unit_zero (S := S1x256) hz]

end AnyValues

/-- The bias tile spread over the 256 rows of an output tile reads, at (p, q), the tile's entry q. -/
theorem bias_rows (x2 : Vec Ideal S1x256 .f32) (p : Fin 256) (q : Fin 256) :
    broadcastTo S256x256 x2 Facts₀.broadcasts_S1x256_S256x256 (ix2 p q) = x2 (ix2 0 q) := by
  refine broadcastTo_apply _ _ _ _ fun a => ?_
  match a with
  | ⟨0, _⟩ => rfl
  | ⟨1, _⟩ => rfl

/-- The three steps composed, at (p, q) of the output tile, on the extended reals: the zero fill contributes the
    zero of the extended reals, which added on the left changes nothing. -/
theorem stored_apply (x0 : Vec Ideal S256x1024 .f32) (x1 : Vec Ideal S1024x256 .f32) (x2 : Vec Ideal S1x256 .f32)
    (p : Fin 256) (q : Fin 256) :
    k0_pay3 (F := Ideal) (k0_pay2 (k0_pay1 (F := Ideal)) x0 x1) x2 (ix2 p q)
      = Ideal.logistic ((∑ k : Fin 1024, x0 (ix2 p k) * x1 (ix2 k q)) + x2 (ix2 0 q)) := by
  unfold k0_pay3 k0_pay2 k0_pay1
  simp only [shapeCast_self]
  show Ideal.logistic ((Ideal.ofBits .f32 0x00000000#32
      + FloatOps.matmul (F := Ideal) _ (some .fp32) x0 x1 (constant (F := Ideal) S256x256 .f32 0x00000000#32) (ix2 p q))
      + broadcastTo S256x256 x2 _ (ix2 p q)) = _
  rw [Cert.LibDotFormats.matmul_cols_zero_apply _ rfl rfl rfl rfl rfl rfl, bias_rows, Ideal.ofBits_zero_f32, zero_add]

end Cert.ReferenceIdeal.Tile

end
-- ==== Proof.RefArray.lean ====
/-
  The reference's result array as a whole.

  The reference walks 32 x 4 x 1 grid points. The point with row-tile index r and column-tile index s reads rows
  256 r .. 256 r + 255 of x (all 1024 columns), columns 256 s .. 256 s + 255 of w (all 1024 rows) and of the bias row,
  and writes the 256 x 256 tile (r, s) of the result. What it writes back is its block of the one whole-array
  function `SigmoidAffine.result` of the three arguments, and the 128 tiles cover the result array (entry (a, b)
  lies in tile (a / 256, b / 256)), so the array ends holding that function.
-/
import proofs.«153373_g2000609348534853_pallasbulk_567_2_alg».proof.Proof.Gen.ReferenceIdeal.Value
import proofs.«153373_g2000609348534853_pallasbulk_567_2_alg».proof.Proof.RefTile
import proofs.«153373_g2000609348534853_pallasbulk_567_2_alg».proof.Proof.SigmoidAffine
import Idealize.ShloMosaic.Lib.Pipeline.Value
import Idealize.ShloMosaic.Lib.Tactic

noncomputable section

namespace Cert.ReferenceIdeal.Whole

open Cert.ReferenceIdeal Cert.ReferenceIdeal.Gen Idealize.ShloMosaic Idealize.ShloMosaic.TcCoe Idealize.SL.Sem
open Idealize.ShloMosaic.ValueIdx
open Idealize.ShloMosaic.Pipeline (Dat)
open scoped BigOperators

variable (m : (ℓ : Loc nD τ sig) → Buf (Elt Ideal) ℓ) (ρ : Dev nD → PrngReg)

/-- The three argument arrays on core `c`, as functions into the extended reals. -/
abbrev xs (c : Dev nD) : S8192x1024.Idx → EReal := m ((c : Thread nD τ).loc main_arg0)
abbrev ws (c : Dev nD) : S1024x1024.Idx → EReal := m ((c : Thread nD τ).loc main_arg1)
abbrev bs (c : Dev nD) : S1x1024.Idx → EReal := m ((c : Thread nD τ).loc main_arg2)

/-- The printed index maps over the 128 grid points: the x tile moves with the output tile down the rows and stays
    at the first block along the contracted axis; the w tile and the bias tile move with the output tile across
    the columns and stay at the first block along their other axis. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = win0_3.index t (1 : Fin 2)
    ∧ win0_2.index t (0 : Fin 2) = 0 ∧ win0_2.index t (1 : Fin 2) = win0_3.index t (1 : Fin 2) :=
  (by decide +kernel : ∀ t : Fin grid0.N, _)

/-- Every one of the 32 x 4 output tiles is some point's. -/
theorem idx_onto : ∀ (r : Fin 32) (s : Fin 4), ∃ t : Fin cfg0.N,
    win0_3.index t (0 : Fin 2) = r.val ∧ win0_3.index t (1 : Fin 2) = s.val :=
  (by decide +kernel : ∀ (r : Fin 32) (s : Fin 4), ∃ t : Fin grid0.N,
    win0_3.index t (0 : Fin 2) = r.val ∧ win0_3.index t (1 : Fin 2) = s.val)

/-- The x tile at point `t`, at `y`, is `x` at the index 256 times the block index plus `y`'s row, and so on. -/
theorem xtile_apply (c : Dev nD) (t : Fin cfg0.N) (y : S256x1024.Idx) (i : S8192x1024.Idx)
    (h0 : (i 0).val = win0_0.index t (0 : Fin 2) * 256 + (y 0).val)
    (h1 : (i 1).val = win0_0.index t (1 : Fin 2) * 1024 + (y 1).val) :
    (iblk m c 0 t : Vec Ideal S256x1024 .f32) y = xs m c i := by
  unfold iblk
  rw [View.read_apply]
  refine congrArg (xs m c) (funext fun a => Fin.ext ?_)
  match a with
  | ⟨0, _⟩ => show win0_0.index t (0 : Fin 2) * 256 + 1 * (y 0).val = (i 0).val; omega
  | ⟨1, _⟩ => show win0_0.index t (1 : Fin 2) * 1024 + 1 * (y 1).val = (i 1).val; omega

/-- The w tile at point `t`: all rows, the columns of the point's column tile. -/
theorem wtile_apply (c : Dev nD) (t : Fin cfg0.N) (y : S1024x256.Idx) (i : S1024x1024.Idx)
    (h0 : (i 0).val = win0_1.index t (0 : Fin 2) * 1024 + (y 0).val)
    (h1 : (i 1).val = win0_1.index t (1 : Fin 2) * 256 + (y 1).val) :
    (iblk m c 1 t : Vec Ideal S1024x256 .f32) y = ws m c i := by
  unfold iblk
  rw [View.read_apply]
  refine congrArg (ws m c) (funext fun a => Fin.ext ?_)
  match a with
  | ⟨0, _⟩ => show win0_1.index t (0 : Fin 2) * 1024 + 1 * (y 0).val = (i 0).val; omega
  | ⟨1, _⟩ => show win0_1.index t (1 : Fin 2) * 256 + 1 * (y 1).val = (i 1).val; omega

/-- The bias tile at point `t`: the entries of the point's column tile. -/
theorem btile_apply (c : Dev nD) (t : Fin cfg0.N) (y : S1x256.Idx) (i : S1x1024.Idx)
    (h0 : (i 0).val = win0_2.index t (0 : Fin 2) * 1 + (y 0).val)
    (h1 : (i 1).val = win0_2.index t (1 : Fin 2) * 256 + (y 1).val) :
    (iblk m c 2 t : Vec Ideal S1x256 .f32) y = bs m c i := by
  unfold iblk
  rw [View.read_apply]
  refine congrArg (bs m c) (funext fun a => Fin.ext ?_)
  match a with
  | ⟨0, _⟩ => show win0_2.index t (0 : Fin 2) * 1 + 1 * (y 0).val = (i 0).val; omega
  | ⟨1, _⟩ => show win0_2.index t (1 : Fin 2) * 256 + 1 * (y 1).val = (i 1).val; omega

/-- WHAT POINT `t` WRITES BACK is its block of `SigmoidAffine.result` of the three arguments. -/
theorem flushed_eq (c : Dev nD) (t : Fin cfg0.N) :
    (dats m 0 c).flushed 3 t
      = ((cfg0.win 3).blk t).view.read (Elt Ideal) (Cert.SigmoidAffine.result (xs m c) (ws m c) (bs m c)) := by
  rw [Cert.ReferenceIdeal.Value.flushed3_A]
  refine (congrArg ((cfg0.win 3).cut (grid0.coords t))
    (Cert.ReferenceIdeal.Tile.left_in_tile (F := Ideal) c (grid0.coords t) (ms0_0 t) (hs0_0 t) (ms0_1 t) (hs0_1 t) (ms0_2 t) (hs0_2 t)
      (ms0_3 t) (hs0_3 t) (hcond0_0 t) (hcond0_1 t) (iblk m c 0 t) (iblk m c 1 t) (iblk m c 2 t))).trans ?_
  obtain ⟨e00, e01, e10, e11, e20, e21⟩ := idx_facts t
  refine funext fun (j : S256x256.Idx) => ?_
  obtain ⟨p, q, rfl⟩ : ∃ (p : Fin 256) (q : Fin 256), j = ix2 p q := ⟨j 0, j 1, eq_ix2 j⟩
  show k0_pay3 (F := Ideal) (k0_pay2 (k0_pay1 (F := Ideal)) (iblk m c 0 t) (iblk m c 1 t)) (iblk m c 2 t) (ix2 p q)
    = Cert.SigmoidAffine.result (xs m c) (ws m c) (bs m c) (((cfg0.win 3).blk t).view.emb (ix2 p q))
  refine (Cert.ReferenceIdeal.Tile.stored_apply (iblk m c 0 t) (iblk m c 1 t) (iblk m c 2 t) p q).trans ?_
  have r0 : ((((cfg0.win 3).blk t).view.emb (ix2 p q) : S8192x1024.Idx) 0).val = win0_3.index t (0 : Fin 2) * 256 + 1 * p.val := rfl
  have r1 : ((((cfg0.win 3).blk t).view.emb (ix2 p q) : S8192x1024.Idx) 1).val = win0_3.index t (1 : Fin 2) * 256 + 1 * q.val := rfl
  rw [Cert.SigmoidAffine.result_apply]
  unfold Cert.SigmoidAffine.entry Cert.SigmoidAffine.dotAt
  refine congrArg Ideal.logistic (congrArg₂ (· + ·) (Finset.sum_congr rfl fun k _ => congrArg₂ (· * ·) ?_ ?_) ?_)
  · exact xtile_apply m c t (ix2 p k) _ (by rw [r0]; show _ = _ + p.val; omega) (by show k.val = _ + k.val; omega)
  · exact wtile_apply m c t (ix2 k q) _ (by show k.val = _ + k.val; omega) (by rw [r1]; show _ = _ + q.val; omega)
  · exact btile_apply m c t (ix2 0 q) _ (by show (0 : Nat) = _ + 0; omega) (by rw [r1]; show _ = _ + q.val; omega)

/-- An index of the result array is in point `t`'s tile iff each coordinate is in the tile's range on its axis. -/
theorem mem_blk (t : Fin cfg0.N) (i : S8192x1024.Idx) :
    i ∈ ((cfg0.win 3).blk t).view.set ↔ ∀ a : Fin 2, win0_3.index t a * S256x256.size a ≤ (i a).val ∧ (i a).val < win0_3.index t a * S256x256.size a + S256x256.size a := by
  show i ∈ ((View.whole main_v0).slice (win0_3.rect t)).set ↔ _
  rw [View.set_slice_whole, Rect.mem_set_unit]
  exact Iff.rfl

/-- The 128 tiles cover the result array: entry (a, b) lies in the tile of the point whose tile indices are
    (a / 256, b / 256). -/
theorem covered (i : S8192x1024.Idx) : ∃ t : Fin cfg0.N, (cfg0.win 3).flush t = true ∧ i ∈ ((cfg0.win 3).blk t).view.set := by
  have hi0 : (i 0).val < 8192 := (i 0).isLt
  have hi1 : (i 1).val < 1024 := (i 1).isLt
  obtain ⟨t, ht0, ht1⟩ := idx_onto ⟨(i 0).val / 256, by omega⟩ ⟨(i 1).val / 256, by omega⟩
  have ht0' : win0_3.index t (0 : Fin 2) = (i 0).val / 256 := ht0
  have ht1' : win0_3.index t (1 : Fin 2) = (i 1).val / 256 := ht1
  refine ⟨t, flush0_3 t, ?_⟩
  rw [mem_blk]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 256 ≤ (i 1).val ∧ (i 1).val < win0_3.index t (1 : Fin 2) * 256 + 256; omega

/-- THE RESULT ARRAY after the run is `SigmoidAffine.result` of the three arguments. -/
theorem final (c : Dev nD) :
    (dats m 0 c).arrAt 3 cfg0.N = Cert.SigmoidAffine.result (xs m c) (ws m c) (bs m c) :=
  (dats m 0 c).arrAt_eq_of_cover 3 _ (fun t _ => flushed_eq m c t) covered

/-- The run, read: the result array at the one function of the arguments, the arguments unchanged. -/
theorem run : θ_run defs (onTc (τ := τ) (main (F := Ideal))) ⟨m, fun _ => 0, ρ⟩ fun r => ∀ c : Dev nD,
      r.2.mem ((c : Thread nD τ).loc main_v0) = Cert.SigmoidAffine.result (xs m c) (ws m c) (bs m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.ReferenceIdeal.Value.run_blocks m ρ)

end Cert.ReferenceIdeal.Whole

end
-- ==== Proof.lean ====
/-
  Both programs compute sigmoid (x w + b) for x of 8192 rows and 1024 columns, w of 1024 rows and 1024 columns and a
  bias row b of 1024 entries, and on the extended reals they compute it entry by entry as the same expression.

  The kernel walks 16 tiles of 512 rows; at each it multiplies the tile (narrowed to the half-width format) by the
  whole weight array (narrowed on the host) into a zero accumulator, adds the bias row and applies the logistic. The
  reference walks 32 x 4 tiles of 256 x 256 outputs with ONE tile along the contracted axis: at each it zeroes the
  output tile, adds the product of a row tile of x and a column tile of w, then adds the bias tile and applies the
  logistic. On the extended reals a change of float format is the identity, a product into a zero accumulator at
  (p, q) is the sum over all 1024 values of k of lhs(p, k) * rhs(k, q), and the reference's leading zero added on
  the left changes nothing. So entry (p, q) of either result is

      logistic ( (sum over k < 1024 of x(p, k) * w(k, q)) + b(0, q) )

  (`SigmoidAffine.result`). No law is used that needs the entries to be finite: the precondition is never opened.

  Modules: SigmoidAffine (the one function); KernelTile, RefTile (what one grid point stores, read at an index);
  KernelArray, RefArray (each point writes its block of the one function, the blocks cover the result array, so the
  array ends holding it); LibDotFormats (a product with one contracted axis read at an index); LibStoreRead (a
  whole-buffer load after whole-buffer stores reads the last store).

  The three frames are the generated ones; the idealization rewrote nothing, so `preserves` is trivial.
-/
import proofs.«153373_g2000609348534853_pallasbulk_567_2_alg».proof.Defs
import proofs.«153373_g2000609348534853_pallasbulk_567_2_alg».proof.Proof.Gen.Kernel
import proofs.«153373_g2000609348534853_pallasbulk_567_2_alg».proof.Proof.Gen.Kernel.Frame
import proofs.«153373_g2000609348534853_pallasbulk_567_2_alg».proof.Proof.Gen.KernelIdeal
import proofs.«153373_g2000609348534853_pallasbulk_567_2_alg».proof.Proof.Gen.KernelIdeal.Frame
import proofs.«153373_g2000609348534853_pallasbulk_567_2_alg».proof.Proof.Gen.ReferenceIdeal
import proofs.«153373_g2000609348534853_pallasbulk_567_2_alg».proof.Proof.Gen.ReferenceIdeal.Frame
import proofs.«153373_g2000609348534853_pallasbulk_567_2_alg».proof.Proof.Gen.Pre_finite_inputs
import proofs.«153373_g2000609348534853_pallasbulk_567_2_alg».proof.Proof.KernelArray
import proofs.«153373_g2000609348534853_pallasbulk_567_2_alg».proof.Proof.RefArray
import Idealize.ShloMosaic.Adequacy
import Idealize.ShloMosaic.Init

noncomputable section

namespace Cert.Proof

open Idealize.ShloMosaic Idealize.ShloMosaic.TcCoe Idealize.SL.Sem

/-- The word-level kernel runs and leaves its arguments unchanged: the generated frame. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- And the reference, itself a tiled kernel. -/
theorem frame_referenceIdeal : Cert.frame_ReferenceIdeal := fun m ρ _ => Cert.ReferenceIdeal.Gen.frame m ρ

/-- From memories that agree on x, w and b, both programs end with the result array at the one function
    `SigmoidAffine.result` of those three arrays. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun r h c => ⟨(h c).1.trans ?_, (h c).2⟩)
    (Cert.ReferenceIdeal.Whole.run m' ρ')
  dsimp only [Cert.ReferenceIdeal.Whole.xs, Cert.ReferenceIdeal.Whole.ws, Cert.ReferenceIdeal.Whole.bs,
    Cert.KernelIdeal.Whole.xs, Cert.KernelIdeal.Whole.ws, Cert.KernelIdeal.Whole.bs]
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
